-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_dk" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) (main_arg3 : IVec S16x2048x2048 32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S16x2048x2049 : Shape := ⟨3, ![16, 2048, 2049]⟩
abbrev S1x512x128 : Shape := ⟨3, ![1, 512, 128]⟩
abbrev S1x2048x128 : Shape := ⟨3, ![1, 2048, 128]⟩
abbrev S1x512x2048 : Shape := ⟨3, ![1, 512, 2048]⟩
abbrev S1x512x2049 : Shape := ⟨3, ![1, 512, 2049]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S512x2049 : Shape := ⟨2, ![512, 2049]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i32⟩
  | .hbm, ⟨4, _⟩ => ⟨S16x2048x128, .f32⟩
  | .hbm, ⟨5, _⟩ => ⟨S16x2048x2049, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x2048, .i32⟩
  | .local _ .vmem, ⟨7, _⟩ => ⟨S1x512x2048, .i32⟩
  | .local _ .vmem, ⟨8, _⟩ => ⟨S1x512x128, .f32⟩
  | .local _ .vmem, ⟨9, _⟩ => ⟨S1x512x128, .f32⟩
  | .local _ .vmem, ⟨10, _⟩ => ⟨S1x512x2049, .f32⟩
  | .local _ .vmem, ⟨11, _⟩ => ⟨S1x512x2049, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2049 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  concatenates_S512x1_S512x2048_S512x2049_d1 : Shape.Concatenates [S512x1, S512x2048] S512x2049 1
  inb_S1x512x2049_S1x512x2049_0_0_0 : ∀ a, (![0, 0, 0] : Fin 3 → Nat) a + S1x512x2049.size a ≤ S1x512x2049.size a
  h_S1x512x2049 : 0 < S1x512x2049.numel
  shapeCasts_S1x512x2049_S512x2049 : S1x512x2049.ShapeCasts S512x2049
  shapeCasts_S512x2049_S1x512x2049 : S512x2049.ShapeCasts S1x512x2049
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2049.size a ≤ S16x2048x2049.size a
  hwx0_5 : ∀ i : grid0.Coords, EltTy.bits .f32 = 32 ∨ (Rect.block (s := S16x2048x2049) S1x512x2049.size (cc0_transform_5 i) (hinb0_5 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2049.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x1x128 : Shape := ⟨3, ![16, 1, 128]⟩
abbrev S16x2049x128 : Shape := ⟨3, ![16, 2049, 128]⟩
abbrev S16x2048x2049 : Shape := ⟨3, ![16, 2048, 2049]⟩
abbrev S16x2048 : Shape := ⟨2, ![16, 2048]⟩
abbrev S16x2048x1 : Shape := ⟨3, ![16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i32⟩
  | .hbm, ⟨4, _⟩ => ⟨S_, .f32⟩
  | .hbm, ⟨5, _⟩ => ⟨S16x1x128, .f32⟩
  | .hbm, ⟨6, _⟩ => ⟨S16x2049x128, .f32⟩
  | .hbm, ⟨7, _⟩ => ⟨S16x2049x128, .f32⟩
  | .hbm, ⟨8, _⟩ => ⟨S16x2048x2049, .f32⟩
  | .hbm, ⟨9, _⟩ => ⟨S_, .f32⟩
  | .hbm, ⟨10, _⟩ => ⟨S16x2048x2049, .f32⟩
  | .hbm, ⟨11, _⟩ => ⟨S16x2048x2049, .f32⟩
  | .hbm, ⟨12, _⟩ => ⟨S_, .i32⟩
  | .hbm, ⟨13, _⟩ => ⟨S_, .i32⟩
  | .hbm, ⟨14, _⟩ => ⟨S16x2048x2049, .i32⟩
  | .hbm, ⟨15, _⟩ => ⟨S_, .i32⟩
  | .hbm, ⟨16, _⟩ => ⟨S16x2048x2049, .i32⟩
  | .hbm, ⟨17, _⟩ => ⟨S16x2048x2049, .i1⟩
  | .hbm, ⟨18, _⟩ => ⟨S_, .f32⟩
  | .hbm, ⟨19, _⟩ => ⟨S16x2048x2049, .f32⟩
  | .hbm, ⟨20, _⟩ => ⟨S16x2048x2049, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2049, .f32⟩
  | .hbm, ⟨25, _⟩ => ⟨S16x2048x2049, .f32⟩
  | .hbm, ⟨26, _⟩ => ⟨S16x2048x2049, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x2049, .f32⟩
  | .hbm, ⟨34, _⟩ => ⟨S16x2048x2049, .f32⟩
  | .hbm, ⟨35, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_call1_v0 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S16x1x128 : S_.BroadcastsInDim S16x1x128 (![] : Fin 0 → Fin S16x1x128.rank)
  concatenates_S16x1x128_S16x2048x128_S16x2049x128_d1 : Shape.Concatenates [S16x1x128, S16x2048x128] S16x2049x128 1
  bcast_S_S16x2048x2049 : S_.BroadcastsInDim S16x2048x2049 (![] : Fin 0 → Fin S16x2048x2049.rank)
  pads_S16x2048x2048_S16x2048x2049_000_000_100 : S16x2048x2048.Pads (![0, 0, 1] : Fin 3 → Nat) ![0, 0, 0] ![0, 0, 0] S16x2048x2049
  h_S_ : 0 < S_.numel
  reducesTo_S16x2048x2049_S16x2048_d2 : S16x2048x2049.ReducesTo [2] S16x2048
  bcast_S16x2048_S16x2048x1_0_1 : S16x2048.BroadcastsInDim S16x2048x1 (![0, 1] : Fin 2 → Fin S16x2048x1.rank)
  bcast_S16x2048x1_S16x2048x2049_0_1_2 : S16x2048x1.BroadcastsInDim S16x2048x2049 (![0, 1, 2] : Fin 3 → Fin S16x2048x2049.rank)
  bcast_S_S16x2048x1 : S_.BroadcastsInDim S16x2048x1 (![] : Fin 0 → Fin S16x2048x1.rank)
  dot_S16x2048x128_S16x2049x128_S16x2048x2049_2_2_1_1_0_0_wf : DotDims.WF S16x2048x128 S16x2049x128 S16x2048x2049 [2] [2] [1] [1] [0] [0]
  dot_S16x2048x2049_S16x2049x128_S16x2048x128_2_1_1_2_0_0_wf : DotDims.WF S16x2048x2049 S16x2049x128 S16x2048x128 [2] [1] [1] [2] [0] [0]

variable [Facts₀]

def dot_S16x2048x128_S16x2049x128_S16x2048x2049_2_2_1_1_0_0 : DotDims S16x2048x128 S16x2049x128 S16x2048x2049 where
  lhsContracting := [2]
  rhsContracting := [2]
  lhsNonContracting := [1]
  rhsNonContracting := [1]
  lhsBatch := [0]
  rhsBatch := [0]
  wf := dot_S16x2048x128_S16x2049x128_S16x2048x2049_2_2_1_1_0_0_wf
def dot_S16x2048x2049_S16x2049x128_S16x2048x128_2_1_1_2_0_0 : DotDims S16x2048x2049 S16x2049x128 S16x2048x128 where
  lhsContracting := [2]
  rhsContracting := [1]
  lhsNonContracting := [1]
  rhsNonContracting := [2]
  lhsBatch := [0]
  rhsBatch := [0]
  wf := dot_S16x2048x2049_S16x2049x128_S16x2048x128_2_1_1_2_0_0_wf

class Facts : Prop extends Facts₀ where

variable [Facts]
-- ==== Proof.AttnSpec.lean ====
/-
  Attention with a "softmax plus one" normalisation and an always-masked zero SINK key, row by row on the extended reals.

  For one query row `qrow`, the keys `K`, the values `Vv` and the row's mask words `mrow`:
    score j   = -1e9 where the mask word is 0, else (∑ d, qrow d · K j d) · c          (c the score scale)
    rowMax    = max (max_j score j) (-1e9)            (the sink's score is the fill value itself)
    expo j    = exp (score j − rowMax),   sinkE = exp (-1e9 − rowMax)
    denom     = (1 + ∑ j, expo j) + sinkE,   invDen = 1 / denom
    prob 0    = sinkE · invDen,   prob (j+1) = expo j · invDen                          (2049 probabilities)
    outv d    = ∑ j, (expo j · invDen) · Vv j d                                         (the sink's value row is zero)
  and the two result arrays of the whole problem, index by index, over the argument arrays (`Gp`, `Gout`).

  The same row is also written the way a plain softmax over the 2049 padded scores computes it (`refScores` …
  `refOut`): one maximum, one sum and one quotient over all 2049 columns, the sink's key and value rows zero.
  That the two spellings are one function is proved in the module of the row laws.
-/
import Idealize.ShloMosaic.PureOps.Ideal
import Idealize.ShloMosaic.Lib.ValueIdx

noncomputable section

namespace Cert.Attn

open Idealize.ShloMosaic Idealize.ShloMosaic.ValueIdx

/-- The mask-fill value: the extended real the f32 word of `-1e9` denotes. -/
def negFill : EReal := Ideal.ofBits .f32 0xCE6E6B28#32

/-- The score scale: the reciprocal of the divisor 11863283 / 2^20 the scores are divided by. -/
def scaleC : EReal := ((1048576 / 11863283 : ℝ) : EReal)

/-- The masked, scaled score of a query row against key `j`. -/
def score (qrow : Fin 128 → EReal) (K : Fin 2048 → Fin 128 → EReal) (mrow : Fin 2048 → BitVec 32) (j : Fin 2048) : EReal :=
  Scalar.select (IntOp.cmpi .eq (mrow j) 0#32) negFill ((∑ d : Fin 128, qrow d * K j d) * scaleC)

/-- The row's maximum, the sink's fill value included. -/
def rowMax (s : Fin 2048 → EReal) : EReal := max ((Finset.univ : Finset (Fin 2048)).fold max ⊥ s) negFill

def expo (s : Fin 2048 → EReal) (j : Fin 2048) : EReal := Ideal.exp (s j - rowMax s)

def sinkE (s : Fin 2048 → EReal) : EReal := Ideal.exp (negFill - rowMax s)

def denom (s : Fin 2048 → EReal) : EReal := (1 + ∑ j : Fin 2048, expo s j) + sinkE s

def invDen (s : Fin 2048 → EReal) : EReal := Ideal.div 1 (denom s)

/-- The probability of real key `j`. -/
def probReal (s : Fin 2048 → EReal) (j : Fin 2048) : EReal := expo s j * invDen s

/-- The probability of the sink. -/
def probSink (s : Fin 2048 → EReal) : EReal := sinkE s * invDen s

/-- The 2049 probabilities of a row: the sink's first, then the real keys'. -/
def prob (s : Fin 2048 → EReal) (j : Fin 2049) : EReal :=
  if h : j.val = 0 then probSink s else probReal s ⟨j.val - 1, by have := j.isLt; omega⟩

/-- The row's output: the probabilities of the real keys against the values (the sink's value row is zero). -/
def outv (s : Fin 2048 → EReal) (Vv : Fin 2048 → Fin 128 → EReal) (d : Fin 128) : EReal :=
  ∑ j : Fin 2048, probReal s j * Vv j d

/-! ## The same row as a plain softmax-plus-one over 2049 padded scores -/

/-- The padded scores: the sink's column holds the fill value. -/
def refScores (s : Fin 2048 → EReal) (j : Fin 2049) : EReal :=
  if h : j.val = 0 then negFill else s ⟨j.val - 1, by have := j.isLt; omega⟩

def refMax (s' : Fin 2049 → EReal) : EReal := (Finset.univ : Finset (Fin 2049)).fold max ⊥ s'

def refE (s' : Fin 2049 → EReal) (j : Fin 2049) : EReal := Ideal.exp (s' j - refMax s')

def refDen (s' : Fin 2049 → EReal) : EReal := 1 + (0 + ∑ j : Fin 2049, refE s' j)

def refProb (s' : Fin 2049 → EReal) (j : Fin 2049) : EReal := Ideal.div (refE s' j) (refDen s')

/-- The padded values: the sink's row is zero. -/
def padV (Vv : Fin 2048 → Fin 128 → EReal) (k : Fin 2049) (d : Fin 128) : EReal :=
  if h : k.val = 0 then 0 else Vv ⟨k.val - 1, by have := k.isLt; omega⟩ d

def refOut (s' : Fin 2049 → EReal) (V1 : Fin 2049 → Fin 128 → EReal) (d : Fin 128) : EReal :=
  ∑ k : Fin 2049, refProb s' k * V1 k d

/-! ## The whole problem's arrays -/

abbrev Sqkv : Shape := ⟨3, ![16, 2048, 128]⟩
abbrev Smask : Shape := ⟨3, ![16, 2048, 2048]⟩
abbrev Sp : Shape := ⟨3, ![16, 2048, 2049]⟩

/-- Query row `r` of batch `b`. -/
def qRow (q : Sqkv.Idx → EReal) (b : Fin 16) (r : Fin 2048) : Fin 128 → EReal := fun d => q (ix3 b r d)
/-- The keys (or the values) of batch `b`. -/
def kMat (k : Sqkv.Idx → EReal) (b : Fin 16) : Fin 2048 → Fin 128 → EReal := fun j d => k (ix3 b j d)
/-- The mask words of query row `r` of batch `b`. -/
def mRow (mask : Smask.Idx → BitVec 32) (b : Fin 16) (r : Fin 2048) : Fin 2048 → BitVec 32 := fun j => mask (ix3 b r j)

/-- The scores of query row `r` of batch `b`. -/
def rowScore (q k : Sqkv.Idx → EReal) (mask : Smask.Idx → BitVec 32) (b : Fin 16) (r : Fin 2048) : Fin 2048 → EReal :=
  score (qRow q b r) (kMat k b) (mRow mask b r)

/-- The probabilities array [16, 2048, 2049]. -/
def Gp (q k : Sqkv.Idx → EReal) (mask : Smask.Idx → BitVec 32) : Sp.Idx → EReal := fun i =>
  prob (rowScore q k mask ⟨(i 0).val, (i 0).isLt⟩ ⟨(i 1).val, (i 1).isLt⟩) ⟨(i 2).val, (i 2).isLt⟩

/-- The output array [16, 2048, 128]. -/
def Gout (q k v : Sqkv.Idx → EReal) (mask : Smask.Idx → BitVec 32) : Sqkv.Idx → EReal := fun i =>
  outv (rowScore q k mask ⟨(i 0).val, (i 0).isLt⟩ ⟨(i 1).val, (i 1).isLt⟩) (kMat v ⟨(i 0).val, (i 0).isLt⟩) ⟨(i 2).val, (i 2).isLt⟩

theorem Gp_ix3 (q k : Sqkv.Idx → EReal) (mask : Smask.Idx → BitVec 32) (b : Fin 16) (r : Fin 2048) (j : Fin 2049) :
    Gp q k mask (ix3 b r j) = prob (rowScore q k mask b r) j := rfl

theorem Gout_ix3 (q k v : Sqkv.Idx → EReal) (mask : Smask.Idx → BitVec 32) (b : Fin 16) (r : Fin 2048) (d : Fin 128) :
    Gout q k v mask (ix3 b r d) = outv (rowScore q k mask b r) (kMat v b) d := rfl

end Cert.Attn

end
-- ==== Proof.AttnConsts.lean ====
/-
  The float words the two programs spell, as the extended reals they denote: `1.0` is 1, the maximum's initial word is −∞,
  and the reference's divisor word is 11863283 / 2^20, so that dividing by it is multiplying by its reciprocal.
-/
import proofs.«410505_j47158740910631_3_alg».proof.Proof.AttnSpec

noncomputable section

namespace Cert.Attn

open Idealize.ShloMosaic

/-- `1.0` denotes 1. -/
theorem ofBits_one : Ideal.ofBits .f32 0x3F800000#32 = 1 := by
  simp [Ideal.ofBits, Ideal.ieee, -EReal.coe_mul]; norm_num

/-- The word of −∞ denotes ⊥. -/
theorem ofBits_neg_inf : Ideal.ofBits .f32 0xFF800000#32 = ⊥ := by
  simp [Ideal.ofBits, Ideal.ieee]

/-- The reference's divisor word denotes 11863283 / 2^20. -/
theorem ofBits_divisor : Ideal.ofBits .f32 0x413504F3#32 = ((11863283 / 1048576 : ℝ) : EReal) := by
  simp [Ideal.ofBits, Ideal.ieee, -EReal.coe_mul]; norm_num

/-- Dividing by the divisor word is multiplying by `scaleC`, on every extended real. -/
theorem div_divisor (x : EReal) : Ideal.div x (Ideal.ofBits .f32 0x413504F3#32) = x * scaleC := by
  rw [ofBits_divisor, Ideal.div_coe (by norm_num : (11863283 / 1048576 : ℝ) ≠ 0)]
  unfold scaleC
  congr 2
  norm_num

end Cert.Attn

end
-- ==== Proof.KernelBlock.lean ====
/-
  What one grid point's body computes, read at an index of its two result blocks: row `r` of the probabilities block
  is the row's 2049 probabilities, row `r` of the output block the row's output, both of the scores of query row `r`
  of the point's query block against the point's key block under the point's mask block.
-/
import proofs.«410505_j47158740910631_3_alg».proof.Proof.AttnSpec
import proofs.«410505_j47158740910631_3_alg».proof.Proof.AttnConsts
import proofs.«410505_j47158740910631_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen Cert.Attn Idealize.ShloMosaic Idealize.ShloMosaic.ValueIdx

/-- The scores of row `r` of a query block against a key block under a mask block. -/
def blkScore (x0 : Vec Ideal S1x512x128 .f32) (x1 : Vec Ideal S1x2048x128 .f32) (x3 : Vec Ideal S1x512x2048 .i32)
    (r : Fin 512) : Fin 2048 → EReal :=
  score (fun d => x0 (ix3 0 r d)) (fun j d => x1 (ix3 0 j d)) (fun j => x3 (ix3 0 r j))

/-! ## Two layout readings the row statistics need: a column of row values -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column at row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two contractions' operand indices -/

theorem lhs_qk_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
theorem lhs_qk_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_qk_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_qk_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

theorem lhs_pv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem lhs_pv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_pv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_pv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-! ## The masked, scaled scores -/

/-- The score scale, as the body names it, is the reciprocal the specification multiplies by. -/
theorem inv_sqrt_dk : Named.named (F := Ideal) κ "inv_sqrt_dk" (φ := .f32) 0x3DB504F3#32 = scaleC :=
  IdealRules.named_const.ideal_named_scalar _ _ _ _ rfl

/-- A contraction of a query block `[512, 128]` with a transposed key block `[128, 2048]` into the zero block reads, at
    `(r, j)`, the dot product of the query block's row `r` with the key block's column `j`. -/
theorem qk_apply (A : FVec Ideal S512x128 .bf16) (B : FVec Ideal S128x2048 .bf16) (r : Fin 512) (j : Fin 2048) :
    matmul dot_S512x128_S128x2048_S512x2048_1_0_0_1_n_n none A B (constant S512x2048 .f32 0x00000000#32) (ix2 r j)
      = ∑ d : Fin 128, A (ix2 r d) * B (ix2 d j) := by
  refine (Ideal.matmul_constant_zero_apply _ _ A B (ix2 r j)).trans ?_
  rw [← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r j)
      ((ValueIdx.contrEquiv1 dot_S512x128_S128x2048_S512x2048_1_0_0_1_n_n 128 rfl rfl).symm k) = ix2 r k :=
    funext fun a => Fin.ext (by
      match a with
      | ⟨0, _⟩ => exact lhs_qk_0 _ _
      | ⟨1, _⟩ => exact (lhs_qk_1 _ _).trans hk)
  have er : dot_S512x128_S128x2048_S512x2048_1_0_0_1_n_n.rhsIdx (ix2 r j)
      ((ValueIdx.contrEquiv1 dot_S512x128_S128x2048_S512x2048_1_0_0_1_n_n 128 rfl rfl).symm k) = ix2 k j :=
    funext fun a => Fin.ext (by
      match a with
      | ⟨0, _⟩ => exact (rhs_qk_0 _ _).trans hk
      | ⟨1, _⟩ => exact rhs_qk_1 _ _)
  rw [el, er]

/-- The query block's row `r`, as the contraction's left operand reads it. -/
theorem q_apply (x0 : Vec Ideal S1x512x128 .f32) (r : Fin 512) (d : Fin 128) :
    (truncf .bf16 (shapeCast S512x128 x0 Facts₀.shapeCasts_S1x512x128_S512x128) Facts₀.bitsLt_bf16_f32 : FVec Ideal S512x128 .bf16)
      (ix2 r d) = x0 (ix3 0 r d) :=
  shapeCast_1ab_ab_apply x0 _ r d

/-- The key block transposed, as the contraction's right operand reads it: at `(d, j)` key `j`'s coordinate `d`. -/
theorem kT_apply (x1 : Vec Ideal S1x2048x128 .f32) (d : Fin 128) (j : Fin 2048) :
    (transpose S128x2048 [1, 0]
      (truncf .bf16 (shapeCast S2048x128 x1 Facts₀.shapeCasts_S1x2048x128_S2048x128) Facts₀.bitsLt_bf16_f32 : FVec Ideal S2048x128 .bf16)
      Facts₀.transposes_S2048x128_p1_0_S128x2048) (ix2 d j) = x1 (ix3 0 j d) :=
  (transpose_ix2_apply _ _ d j).trans (shapeCast_1ab_ab_apply x1 _ j d)

/-- The first payload: the masked, scaled scores of the block, at `(r, j)` the specification's score of row `r` against key `j`. -/
theorem pay3_apply (x0 : Vec Ideal S1x512x128 .f32) (x1 : Vec Ideal S1x2048x128 .f32) (x3 : Vec Ideal S1x512x2048 .i32)
    (r : Fin 512) (j : Fin 2048) :
    k0_pay3 (F := Ideal) x0 x1 x3 (ix2 r j) = blkScore x0 x1 x3 r j := by
  unfold k0_pay3 blkScore score negFill
  show Scalar.select (IntOp.cmpi .eq (shapeCast S512x2048 x3 _ (ix2 r j)) 0#32) (Ideal.ofBits .f32 0xCE6E6B28#32)
      (matmul dot_S512x128_S128x2048_S512x2048_1_0_0_1_n_n none _ _ (constant S512x2048 .f32 0x00000000#32) (ix2 r j)
        * Named.named (F := Ideal) κ "inv_sqrt_dk" (φ := .f32) 0x3DB504F3#32) = _
  rw [shapeCast_1ab_ab_apply x3 _ r j, qk_apply, inv_sqrt_dk]
  refine congrArg (fun t => Scalar.select (IntOp.cmpi .eq (x3 (ix3 0 r j)) 0#32) (Ideal.ofBits .f32 0xCE6E6B28#32) (t * scaleC)) ?_
  exact Finset.sum_congr rfl fun d _ => congrArg₂ (· * ·) (q_apply x0 r d) (kT_apply x1 d j)

/-! ## The row statistics -/

/-- A row maximum from the word of −∞: the fold of `max` from ⊥ over the row. -/
theorem rowmax_apply (src : FVec Ideal S512x2048 .f32) (hφ : FKind.Formats .f32)
    (hacc : (0xFF800000#32 : BitVec 32) = 0xFF800000#32) (r : Fin 512) :
    multiReduction .maximumf [1] S512 src 0xFF800000#32 Facts₀.reduces_S512x2048_S512 hφ hacc (ix1 r)
      = (Finset.univ : Finset (Fin 2048)).fold max ⊥ (fun j => src (ix2 r j)) := by
  refine (Ideal.multiReduction_maximumf_single src 0xFF800000#32 Facts₀.reduces_S512x2048_S512 hφ hacc (ix1 r)).trans ?_
  have hl : ∀ k : Fin 2048, Facts₀.reduces_S512x2048_S512.lift (ix1 r) k = ix2 r k := fun k =>
    funext fun a => Fin.ext (match a with | ⟨0, _⟩ => rfl | ⟨1, _⟩ => rfl)
  exact congrArg₂ (fun b (f : Fin 2048 → EReal) => (Finset.univ : Finset (Fin 2048)).fold max b f) ofBits_neg_inf
    (funext fun k => congrArg src (hl k))

/-- A row sum from the zero word: the sum over the row. -/
theorem rowsum_apply (src : FVec Ideal S512x2048 .f32) (hφ : FKind.Formats .f32)
    (hacc : (0x00000000#32 : BitVec 32) = 0x00000000#32) (r : Fin 512) :
    multiReduction .add [1] S512 src 0x00000000#32 Facts₀.reduces_S512x2048_S512 hφ hacc (ix1 r)
      = ∑ j : Fin 2048, src (ix2 r j) := by
  refine (Ideal.multiReduction_add_single src 0x00000000#32 Facts₀.reduces_S512x2048_S512 hφ hacc (ix1 r)).trans ?_
  have hl : ∀ k : Fin 2048, Facts₀.reduces_S512x2048_S512.lift (ix1 r) k = ix2 r k := fun k =>
    funext fun a => Fin.ext (match a with | ⟨0, _⟩ => rfl | ⟨1, _⟩ => rfl)
  exact Finset.sum_congr rfl fun k _ => congrArg src (hl k)

/-- The second payload: the column of row maxima, the fill value included. -/
theorem pay4_apply (x0 : Vec Ideal S1x512x128 .f32) (x1 : Vec Ideal S1x2048x128 .f32) (x3 : Vec Ideal S1x512x2048 .i32)
    (r : Fin 512) (u : Fin 1) :
    k0_pay4 (F := Ideal) x0 x1 x3 (ix2 r u) = rowMax (blkScore x0 x1 x3 r) := by
  unfold k0_pay4 rowMax negFill
  refine (maximumf_apply _ _ (ix2 r u)).trans ?_
  refine congrArg₂ max ?_ rfl
  refine (shapeCast_a_a1_apply _ _ r u).trans ?_
  refine (rowmax_apply _ _ _ r).trans ?_
  exact congrArg (fun f : Fin 2048 → EReal => (Finset.univ : Finset (Fin 2048)).fold max ⊥ f)
    (funext (pay3_apply x0 x1 x3 r))

/-- An exponential at an index is the exponential of the element. -/
theorem exp_apply {s : Shape} {φ : FTy} (a : FVec Ideal s φ) (i : s.Idx) : exp a i = Ideal.exp (a i) := rfl

/-- The third payload: the exponentials of the scores less the row maximum. -/
theorem pay5_apply (x0 : Vec Ideal S1x512x128 .f32) (x1 : Vec Ideal S1x2048x128 .f32) (x3 : Vec Ideal S1x512x2048 .i32)
    (r : Fin 512) (j : Fin 2048) :
    k0_pay5 (F := Ideal) x0 x1 x3 (ix2 r j) = expo (blkScore x0 x1 x3 r) j := by
  unfold k0_pay5 expo
  refine (exp_apply _ (ix2 r j)).trans ?_
  refine congrArg Ideal.exp ?_
  refine (subf_apply _ _ (ix2 r j)).trans ?_
  exact congrArg₂ (fun a b : EReal => a - b) (pay3_apply x0 x1 x3 r j)
    ((broadcastTo_a1_ab_apply _ _ r j).trans (pay4_apply x0 x1 x3 r 0))

/-- The fourth payload: the column of the sink's exponentials. -/
theorem pay6_apply (x0 : Vec Ideal S1x512x128 .f32) (x1 : Vec Ideal S1x2048x128 .f32) (x3 : Vec Ideal S1x512x2048 .i32)
    (r : Fin 512) (u : Fin 1) :
    k0_pay6 (F := Ideal) x0 x1 x3 (ix2 r u) = sinkE (blkScore x0 x1 x3 r) := by
  unfold k0_pay6 sinkE negFill
  refine (exp_apply _ (ix2 r u)).trans ?_
  refine congrArg Ideal.exp ?_
  refine (subf_apply _ _ (ix2 r u)).trans ?_
  exact congrArg₂ (fun a b : EReal => a - b) rfl (pay4_apply x0 x1 x3 r u)

/-- The fifth payload: the column of reciprocals of the denominators. -/
theorem pay7_apply (x0 : Vec Ideal S1x512x128 .f32) (x1 : Vec Ideal S1x2048x128 .f32) (x3 : Vec Ideal S1x512x2048 .i32)
    (r : Fin 512) (u : Fin 1) :
    k0_pay7 (F := Ideal) x0 x1 x3 (ix2 r u) = invDen (blkScore x0 x1 x3 r) := by
  unfold k0_pay7 invDen denom
  refine (divf_apply _ _ (ix2 r u)).trans ?_
  refine congrArg₂ Ideal.div ofBits_one ?_
  refine (addf_apply _ _ (ix2 r u)).trans ?_
  refine congrArg₂ (fun a b : EReal => a + b) ?_ (pay6_apply x0 x1 x3 r u)
  refine (addf_apply _ _ (ix2 r u)).trans ?_
  refine congrArg₂ (fun a b : EReal => a + b) ofBits_one ?_
  refine (shapeCast_a_a1_apply _ _ r u).trans ?_
  refine (rowsum_apply _ _ _ r).trans ?_
  exact Finset.sum_congr rfl fun j _ => pay5_apply x0 x1 x3 r j

/-- The sixth payload: the probabilities of the real keys. -/
theorem pay8_apply (x0 : Vec Ideal S1x512x128 .f32) (x1 : Vec Ideal S1x2048x128 .f32) (x3 : Vec Ideal S1x512x2048 .i32)
    (r : Fin 512) (j : Fin 2048) :
    k0_pay8 (F := Ideal) x0 x1 x3 (ix2 r j) = probReal (blkScore x0 x1 x3 r) j := by
  unfold k0_pay8 probReal
  refine (mulf_apply _ _ (ix2 r j)).trans ?_
  exact congrArg₂ (fun a b : EReal => a * b) (pay5_apply x0 x1 x3 r j)
    ((broadcastTo_a1_ab_apply _ _ r j).trans (pay7_apply x0 x1 x3 r 0))

/-- The seventh payload: the column of the sink's probabilities. -/
theorem pay9_apply (x0 : Vec Ideal S1x512x128 .f32) (x1 : Vec Ideal S1x2048x128 .f32) (x3 : Vec Ideal S1x512x2048 .i32)
    (r : Fin 512) (u : Fin 1) :
    k0_pay9 (F := Ideal) x0 x1 x3 (ix2 r u) = probSink (blkScore x0 x1 x3 r) := by
  unfold k0_pay9 probSink
  refine (mulf_apply _ _ (ix2 r u)).trans ?_
  exact congrArg₂ (fun a b : EReal => a * b) (pay6_apply x0 x1 x3 r u) (pay7_apply x0 x1 x3 r u)

/-! ## The two result blocks -/

/-- A column `[512, 1]` set before a block `[512, 2048]` along the columns reads, at `(r, j)`, the column's row `r` where
    `j` is 0 and the block at `(r, j − 1)` elsewhere. -/
theorem concat_col_apply (c : FVec Ideal S512x1 .f32) (M : FVec Ideal S512x2048 .f32) (r : Fin 512) (j : Fin 2049) :
    concatenate S512x2049 1 [⟨S512x1, c⟩, ⟨S512x2048, M⟩] Facts₀.concatenates_S512x1_S512x2048_S512x2049_d1 (ix2 r j)
      = if h : j.val = 0 then c (ix2 r (0 : Fin 1)) else M (ix2 r ⟨j.val - 1, by have := j.isLt; omega⟩) := by
  split
  · rename_i h
    refine concatenate_pair_apply_left (1 : Fin S512x2049.rank) c M _ (ix2 r j) rfl (ix2 r (0 : Fin 1)) fun b => ?_
    match b with
    | ⟨0, _⟩ => rfl
    | ⟨1, _⟩ => exact h.symm
  · rename_i h
    refine concatenate_pair_apply_right (1 : Fin S512x2049.rank) c M _ (ix2 r j) rfl rfl
      (ix2 r ⟨j.val - 1, by have := j.isLt; omega⟩) (fun b hb => ?_) ?_
    · match b with
      | ⟨0, _⟩ => rfl
      | ⟨1, _⟩ => exact absurd rfl hb
    · show (j.val - 1) + 1 = j.val
      omega

/-- A contraction of a probabilities block `[512, 2048]` with a value block `[2048, 128]` into the zero block reads, at
    `(r, d)`, the dot product of the probabilities block's row `r` with the value block's column `d`. -/
theorem pv_apply (A : FVec Ideal S512x2048 .bf16) (B : FVec Ideal S2048x128 .bf16) (r : Fin 512) (d : Fin 128) :
    matmul dot_S512x2048_S2048x128_S512x128_1_0_0_1_n_n none A B (constant S512x128 .f32 0x00000000#32) (ix2 r d)
      = ∑ j : Fin 2048, A (ix2 r j) * B (ix2 j d) := by
  refine (Ideal.matmul_constant_zero_apply _ _ A B (ix2 r d)).trans ?_
  rw [← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r d)
      ((ValueIdx.contrEquiv1 dot_S512x2048_S2048x128_S512x128_1_0_0_1_n_n 2048 rfl rfl).symm k) = ix2 r k :=
    funext fun a => Fin.ext (by
      match a with
      | ⟨0, _⟩ => exact lhs_pv_0 _ _
      | ⟨1, _⟩ => exact (lhs_pv_1 _ _).trans hk)
  have er : dot_S512x2048_S2048x128_S512x128_1_0_0_1_n_n.rhsIdx (ix2 r d)
      ((ValueIdx.contrEquiv1 dot_S512x2048_S2048x128_S512x128_1_0_0_1_n_n 2048 rfl rfl).symm k) = ix2 k d :=
    funext fun a => Fin.ext (by
      match a with
      | ⟨0, _⟩ => exact (rhs_pv_0 _ _).trans hk
      | ⟨1, _⟩ => exact rhs_pv_1 _ _)
  rw [el, er]

/-- The probabilities block at (row `r`, column `j`). -/
theorem pay_p_apply (x0 : Vec Ideal S1x512x128 .f32) (x1 : Vec Ideal S1x2048x128 .f32) (x3 : Vec Ideal S1x512x2048 .i32)
    (r : Fin 512) (j : Fin 2049) :
    k0_pay2 (F := Ideal) (k0_pay8 x0 x1 x3) (k0_pay9 x0 x1 x3) (ix3 0 r j) = prob (blkScore x0 x1 x3 r) j := by
  unfold k0_pay2 prob
  refine (shapeCast_ab_1ab_apply _ _ 0 r j).trans ?_
  refine (concat_col_apply _ _ r j).trans ?_
  split
  · exact pay9_apply x0 x1 x3 r 0
  · exact pay8_apply x0 x1 x3 r _

/-- The output block at (row `r`, column `d`). -/
theorem pay_o_apply (x0 : Vec Ideal S1x512x128 .f32) (x1 x2 : Vec Ideal S1x2048x128 .f32) (x3 : Vec Ideal S1x512x2048 .i32)
    (r : Fin 512) (d : Fin 128) :
    k0_pay1 (F := Ideal) (k0_pay8 x0 x1 x3) x2 (ix3 0 r d) = outv (blkScore x0 x1 x3 r) (fun j d => x2 (ix3 0 j d)) d := by
  unfold k0_pay1 outv
  refine (shapeCast_ab_1ab_apply _ _ 0 r d).trans ?_
  refine (pv_apply _ _ r d).trans ?_
  refine Finset.sum_congr rfl fun j _ => ?_
  exact congrArg₂ (fun a b : EReal => a * b) (pay8_apply x0 x1 x3 r j) (shapeCast_1ab_ab_apply x2 _ j d)

end Cert.KernelIdeal.AttnValue

end
-- ==== Proof.KernelArray.lean ====
/-
  From blocks to arrays: grid point (b, qi) writes rows 512·qi … 512·qi + 511 of batch b of both result arrays, the 64
  points cover them, so after the run the two result arrays are `Gout` and `Gp` of the argument arrays.
-/
import proofs.«410505_j47158740910631_3_alg».proof.Proof.KernelBlock
import proofs.«410505_j47158740910631_3_alg».proof.Proof.Gen.KernelIdeal.Value

noncomputable section

namespace Cert.KernelIdeal.AttnValue

open Cert.KernelIdeal Cert.KernelIdeal.Gen Cert.Attn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offset triple is the constant-zero offset. -/
theorem offs_zero : (![0, 0, 0] : Fin 3 → Nat) = fun _ => 0 :=
  funext fun a => match a with | ⟨0, _⟩ => rfl | ⟨1, _⟩ => rfl | ⟨2, _⟩ => rfl

/-- The block indices of the six windows at a grid point, decided over the 64 points: the query, mask, output and
    probability windows sit at block (b, qi, 0), the key and value windows at block (b, 0, 0), with b ≤ 15 and qi ≤ 3. -/
theorem idx_facts : ∀ t : Fin cfg0.N,
    win0_0.index t (0 : Fin 3) = win0_5.index t (0 : Fin 3)
    ∧ win0_0.index t (1 : Fin 3) = win0_5.index t (1 : Fin 3)
    ∧ win0_0.index t (2 : Fin 3) = 0
    ∧ win0_1.index t (0 : Fin 3) = win0_5.index t (0 : Fin 3)
    ∧ win0_1.index t (1 : Fin 3) = 0
    ∧ win0_1.index t (2 : Fin 3) = 0
    ∧ win0_2.index t (0 : Fin 3) = win0_5.index t (0 : Fin 3)
    ∧ win0_2.index t (1 : Fin 3) = 0
    ∧ win0_2.index t (2 : Fin 3) = 0
    ∧ win0_3.index t (0 : Fin 3) = win0_5.index t (0 : Fin 3)
    ∧ win0_3.index t (1 : Fin 3) = win0_5.index t (1 : Fin 3)
    ∧ win0_3.index t (2 : Fin 3) = 0
    ∧ win0_4.index t (0 : Fin 3) = win0_5.index t (0 : Fin 3)
    ∧ win0_4.index t (1 : Fin 3) = win0_5.index t (1 : Fin 3)
    ∧ win0_4.index t (2 : Fin 3) = 0
    ∧ win0_5.index t (2 : Fin 3) = 0
    ∧ win0_5.index t (0 : Fin 3) ≤ 15
    ∧ win0_5.index t (1 : Fin 3) ≤ 3 :=
  (by decide +kernel : ∀ t : Fin grid0.N, _)

/-- Every block (b, qi, 0) of the probabilities array is some grid point's. -/
theorem idx_onto_p : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- Every block (b, qi, 0) of the output array is some grid point's. -/
theorem idx_onto_o : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- A query block's element is the query array's, at batch b and row 512·qi + (the row inside the block). -/
theorem q_blk (c : Dev nD) (t : Fin cfg0.N) (x : S1x512x128.Idx) (k : S16x2048x128.Idx)
    (h0 : (k 0).val = win0_5.index t (0 : Fin 3)) (h1 : (k 1).val = win0_5.index t (1 : Fin 3) * 512 + (x 1).val)
    (h2 : (k 2).val = (x 2).val) :
    (iblk m c 0 t : Vec Ideal S1x512x128 .f32) x = (V m c main_arg0 : S16x2048x128.Idx → EReal) k := by
  obtain ⟨e00, e01, e02, -⟩ := idx_facts t
  have hx0 : (x 0).val < 1 := (x 0).isLt
  unfold iblk
  rw [View.read_apply]
  show (V m c main_arg0 : S16x2048x128.Idx → EReal) _ = _
  refine congrArg (V m c main_arg0 : S16x2048x128.Idx → EReal) ?_
  funext a; apply Fin.ext
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 128 + 1 * (x 2).val = (k 2).val; omega

/-- A key block's element is the key array's, at batch b (the key block is the whole batch). -/
theorem k_blk (c : Dev nD) (t : Fin cfg0.N) (x : S1x2048x128.Idx) (k : S16x2048x128.Idx)
    (h0 : (k 0).val = win0_5.index t (0 : Fin 3)) (h1 : (k 1).val = (x 1).val) (h2 : (k 2).val = (x 2).val) :
    (iblk m c 1 t : Vec Ideal S1x2048x128 .f32) x = (V m c main_arg1 : S16x2048x128.Idx → EReal) k := by
  obtain ⟨-, -, -, e10, e11, e12, -⟩ := idx_facts t
  have hx0 : (x 0).val < 1 := (x 0).isLt
  unfold iblk
  rw [View.read_apply]
  show (V m c main_arg1 : S16x2048x128.Idx → EReal) _ = _
  refine congrArg (V m c main_arg1 : S16x2048x128.Idx → EReal) ?_
  funext a; apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 128 + 1 * (x 2).val = (k 2).val; omega

/-- A value block's element is the value array's, at batch b (the value block is the whole batch). -/
theorem v_blk (c : Dev nD) (t : Fin cfg0.N) (x : S1x2048x128.Idx) (k : S16x2048x128.Idx)
    (h0 : (k 0).val = win0_5.index t (0 : Fin 3)) (h1 : (k 1).val = (x 1).val) (h2 : (k 2).val = (x 2).val) :
    (iblk m c 2 t : Vec Ideal S1x2048x128 .f32) x = (V m c main_arg2 : S16x2048x128.Idx → EReal) k := by
  obtain ⟨-, -, -, -, -, -, e20, e21, e22, -⟩ := idx_facts t
  have hx0 : (x 0).val < 1 := (x 0).isLt
  unfold iblk
  rw [View.read_apply]
  show (V m c main_arg2 : S16x2048x128.Idx → EReal) _ = _
  refine congrArg (V m c main_arg2 : S16x2048x128.Idx → EReal) ?_
  funext a; apply Fin.ext
  match a with
  | ⟨0, _⟩ => show win0_2.index t (0 : Fin 3) * 1 + 1 * (x 0).val = (k 0).val; omega
  | ⟨1, _⟩ => show win0_2.index t (1 : Fin 3) * 2048 + 1 * (x 1).val = (k 1).val; omega
  | ⟨2, _⟩ => show win0_2.index t (2 : Fin 3) * 128 + 1 * (x 2).val = (k 2).val; omega

/-- A mask block's word is the mask array's, at batch b and row 512·qi + (the row inside the block). -/
theorem mask_blk (c : Dev nD) (t : Fin cfg0.N) (x : S1x512x2048.Idx) (k : S16x2048x2048.Idx)
    (h0 : (k 0).val = win0_5.index t (0 : Fin 3)) (h1 : (k 1).val = win0_5.index t (1 : Fin 3) * 512 + (x 1).val)
    (h2 : (k 2).val = (x 2).val) :
    (iblk m c 3 t : Vec Ideal S1x512x2048 .i32) x = (V m c main_arg3 : S16x2048x2048.Idx → BitVec 32) k := by
  obtain ⟨-, -, -, -, -, -, -, -, -, e30, e31, e32, -⟩ := idx_facts t
  have hx0 : (x 0).val < 1 := (x 0).isLt
  unfold iblk
  rw [View.read_apply]
  show (V m c main_arg3 : S16x2048x2048.Idx → BitVec 32) _ = _
  refine congrArg (V m c main_arg3 : S16x2048x2048.Idx → BitVec 32) ?_
  funext a; apply Fin.ext
  match a with
  | ⟨0, _⟩ => show win0_3.index t (0 : Fin 3) * 1 + 1 * (x 0).val = (k 0).val; omega
  | ⟨1, _⟩ => show win0_3.index t (1 : Fin 3) * 512 + 1 * (x 1).val = (k 1).val; omega
  | ⟨2, _⟩ => show win0_3.index t (2 : Fin 3) * 2048 + 1 * (x 2).val = (k 2).val; omega

/-- The scores of row `r` of a grid point's blocks are the scores of row 512·qi + r of batch b of the arrays. -/
theorem score_blk (c : Dev nD) (t : Fin cfg0.N) (r : Fin 512) (b : Fin 16) (r' : Fin 2048)
    (hb : b.val = win0_5.index t (0 : Fin 3)) (hr : r'.val = win0_5.index t (1 : Fin 3) * 512 + r.val) :
    blkScore (iblk m c 0 t) (iblk m c 1 t) (iblk m c 3 t) r
      = rowScore (V m c main_arg0) (V m c main_arg1) (V m c main_arg3) b r' := by
  have hq : (fun d : Fin 128 => (iblk m c 0 t : Vec Ideal S1x512x128 .f32) (ix3 0 r d))
      = qRow (V m c main_arg0) b r' := funext fun d => q_blk m c t _ _ hb hr rfl
  have hk : (fun (j : Fin 2048) (d : Fin 128) => (iblk m c 1 t : Vec Ideal S1x2048x128 .f32) (ix3 0 j d))
      = kMat (V m c main_arg1) b := funext fun j => funext fun d => k_blk m c t _ _ hb rfl rfl
  have hm : (fun j : Fin 2048 => (iblk m c 3 t : Vec Ideal S1x512x2048 .i32) (ix3 0 r j))
      = mRow (V m c main_arg3) b r' := funext fun j => mask_blk m c t _ _ hb hr rfl
  unfold blkScore rowScore
  rw [hq, hk, hm]

/-- The probabilities block at any of its indices: row `y 1`, column `y 2`. -/
theorem blk_p (x0 : Vec Ideal S1x512x128 .f32) (x1 : Vec Ideal S1x2048x128 .f32) (x3 : Vec Ideal S1x512x2048 .i32)
    (y : S1x512x2049.Idx) :
    k0_pay2 (F := Ideal) (k0_pay8 x0 x1 x3) (k0_pay9 x0 x1 x3) y
      = prob (blkScore x0 x1 x3 ⟨(y 1).val, (y 1).isLt⟩) ⟨(y 2).val, (y 2).isLt⟩ := by
  have e : y = ix3 (0 : Fin 1) (⟨(y 1).val, (y 1).isLt⟩ : Fin 512) (⟨(y 2).val, (y 2).isLt⟩ : Fin 2049) := by
    funext a
    match a with
    | ⟨0, _⟩ => exact Fin.ext (by have h : (y 0).val < 1 := (y 0).isLt; show (y 0).val = 0; omega)
    | ⟨1, _⟩ => rfl
    | ⟨2, _⟩ => rfl
  exact (congrArg _ e).trans (pay_p_apply x0 x1 x3 _ _)

/-- What grid point `t` writes back to the probabilities array is its block of `Gp` of the argument arrays. -/
theorem flushed_p (c : Dev nD) (t : Fin cfg0.N) :
    (dats m 0 c).flushed 5 t
      = ((cfg0.win 5).blk t).view.read (Elt Ideal) (Gp (V m c main_arg0) (V m c main_arg1) (V m c main_arg3)) := by
  rw [Value.flushed5]
  unfold out0_5
  rw [View.canon_unit_zero offs_zero]
  simp only [View.ld_unit_zero (S := S1x512x128) offs_zero, View.ld_unit_zero (S := S1x2048x128) offs_zero, View.ld_unit_zero (S := S1x512x2048) offs_zero]
  funext y
  refine (blk_p _ _ _ y).trans ?_
  obtain ⟨-, -, -, -, -, -, -, -, -, -, -, -, -, -, -, e52, l0, l1⟩ := idx_facts t
  have hy0 : (y 0).val < 1 := (y 0).isLt
  have hy1 : (y 1).val < 512 := (y 1).isLt
  have hy2 : (y 2).val < 2049 := (y 2).isLt
  have hi : ((cfg0.win 5).blk t).view.emb y
      = ix3 (⟨win0_5.index t (0 : Fin 3), by omega⟩ : Fin 16) (⟨win0_5.index t (1 : Fin 3) * 512 + (y 1).val, by omega⟩ : Fin 2048)
          (⟨(y 2).val, hy2⟩ : Fin 2049) := by
    funext a; apply Fin.ext
    match a with
    | ⟨0, _⟩ => show win0_5.index t (0 : Fin 3) * 1 + 1 * (y 0).val = win0_5.index t (0 : Fin 3); omega
    | ⟨1, _⟩ => show win0_5.index t (1 : Fin 3) * 512 + 1 * (y 1).val = win0_5.index t (1 : Fin 3) * 512 + (y 1).val; omega
    | ⟨2, _⟩ => show win0_5.index t (2 : Fin 3) * 2049 + 1 * (y 2).val = (y 2).val; omega
  show _ = Gp (V m c main_arg0) (V m c main_arg1) (V m c main_arg3) (((cfg0.win 5).blk t).view.emb y)
  refine Eq.trans ?_ (congrArg (Gp (V m c main_arg0) (V m c main_arg1) (V m c main_arg3)) hi).symm
  refine Eq.trans ?_ (Gp_ix3 _ _ _ _ _ _).symm
  exact congrArg (fun s => prob s _) (score_blk m c t _ _ _ rfl rfl)

/-- An index of the probabilities array is in point `t`'s block iff each coordinate is in the block's range on its axis. -/
theorem mem_blk_p (t : Fin cfg0.N) (i : S16x2048x2049.Idx) :
    i ∈ ((cfg0.win 5).blk t).view.set ↔ ∀ a : Fin 3, win0_5.index t a * S1x512x2049.size a ≤ (i a).val
      ∧ (i a).val < win0_5.index t a * S1x512x2049.size a + S1x512x2049.size a := by
  show i ∈ ((View.whole main_v0_1).slice (win0_5.rect t)).set ↔ _
  rw [View.set_slice_whole, Rect.mem_set_unit]
  exact Iff.rfl

/-- Every index (b, r', j) of the probabilities array is in the block of the point with block index (b, r' / 512, 0). -/
theorem cover_p (i : S16x2048x2049.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2049 := (i 2).isLt
  obtain ⟨t, ht⟩ := idx_onto_p ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk_p]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2049 ≤ (i 2).val ∧ (i 2).val < win0_5.index t (2 : Fin 3) * 2049 + 2049; omega

/-- The probabilities array after the run. -/
theorem final_p (c : Dev nD) : (dats m 0 c).arrAt 5 cfg0.N
    = Gp (m ((c : Thread nD τ).loc main_arg0)) (m ((c : Thread nD τ).loc main_arg1)) (m ((c : Thread nD τ).loc main_arg3)) :=
  (dats m 0 c).arrAt_eq_of_cover 5 (Gp (V m c main_arg0) (V m c main_arg1) (V m c main_arg3))
    (fun t _ => flushed_p m c t) cover_p

/-- The output block at any of its indices: row `y 1`, column `y 2`. -/
theorem blk_o (x0 : Vec Ideal S1x512x128 .f32) (x1 x2 : Vec Ideal S1x2048x128 .f32) (x3 : Vec Ideal S1x512x2048 .i32)
    (y : S1x512x128.Idx) :
    k0_pay1 (F := Ideal) (k0_pay8 x0 x1 x3) x2 y
      = outv (blkScore x0 x1 x3 ⟨(y 1).val, (y 1).isLt⟩) (fun j d => x2 (ix3 0 j d)) ⟨(y 2).val, (y 2).isLt⟩ := by
  have e : y = ix3 (0 : Fin 1) (⟨(y 1).val, (y 1).isLt⟩ : Fin 512) (⟨(y 2).val, (y 2).isLt⟩ : Fin 128) := by
    funext a
    match a with
    | ⟨0, _⟩ => exact Fin.ext (by have h : (y 0).val < 1 := (y 0).isLt; show (y 0).val = 0; omega)
    | ⟨1, _⟩ => rfl
    | ⟨2, _⟩ => rfl
  exact (congrArg _ e).trans (pay_o_apply x0 x1 x2 x3 _ _)

/-- What grid point `t` writes back to the output array is its block of `Gout` of the argument arrays. -/
theorem flushed_o (c : Dev nD) (t : Fin cfg0.N) :
    (dats m 0 c).flushed 4 t
      = ((cfg0.win 4).blk t).view.read (Elt Ideal)
          (Gout (V m c main_arg0) (V m c main_arg1) (V m c main_arg2) (V m c main_arg3)) := by
  rw [Value.flushed4]
  unfold out0_4
  rw [View.canon_unit_zero offs_zero]
  simp only [View.ld_unit_zero (S := S1x512x128) offs_zero, View.ld_unit_zero (S := S1x2048x128) offs_zero, View.ld_unit_zero (S := S1x512x2048) offs_zero]
  funext y
  refine (blk_o _ _ _ _ y).trans ?_
  obtain ⟨-, -, -, -, -, -, -, -, -, -, -, -, e40, e41, e42, -, l0, l1⟩ := idx_facts t
  have hy0 : (y 0).val < 1 := (y 0).isLt
  have hy1 : (y 1).val < 512 := (y 1).isLt
  have hy2 : (y 2).val < 128 := (y 2).isLt
  have hi : ((cfg0.win 4).blk t).view.emb y
      = ix3 (⟨win0_5.index t (0 : Fin 3), by omega⟩ : Fin 16) (⟨win0_5.index t (1 : Fin 3) * 512 + (y 1).val, by omega⟩ : Fin 2048)
          (⟨(y 2).val, hy2⟩ : Fin 128) := by
    funext a; apply Fin.ext
    match a with
    | ⟨0, _⟩ => show win0_4.index t (0 : Fin 3) * 1 + 1 * (y 0).val = win0_5.index t (0 : Fin 3); omega
    | ⟨1, _⟩ => show win0_4.index t (1 : Fin 3) * 512 + 1 * (y 1).val = win0_5.index t (1 : Fin 3) * 512 + (y 1).val; omega
    | ⟨2, _⟩ => show win0_4.index t (2 : Fin 3) * 128 + 1 * (y 2).val = (y 2).val; omega
  show _ = Gout (V m c main_arg0) (V m c main_arg1) (V m c main_arg2) (V m c main_arg3) (((cfg0.win 4).blk t).view.emb y)
  refine Eq.trans ?_ (congrArg (Gout (V m c main_arg0) (V m c main_arg1) (V m c main_arg2) (V m c main_arg3)) hi).symm
  refine Eq.trans ?_ (Gout_ix3 _ _ _ _ _ _ _).symm
  have hv : (fun (j : Fin 2048) (d : Fin 128) => (iblk m c 2 t : Vec Ideal S1x2048x128 .f32) (ix3 0 j d))
      = kMat (V m c main_arg2) (⟨win0_5.index t (0 : Fin 3), by omega⟩ : Fin 16) :=
    funext fun j => funext fun d => v_blk m c t _ _ rfl rfl rfl
  exact congrArg₂ (fun s v => outv s v _) (score_blk m c t _ _ _ rfl rfl) hv

/-- An index of the output array is in point `t`'s block iff each coordinate is in the block's range on its axis. -/
theorem mem_blk_o (t : Fin cfg0.N) (i : S16x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v0_0).slice (win0_4.rect t)).set ↔ _
  rw [View.set_slice_whole, Rect.mem_set_unit]
  exact Iff.rfl

/-- Every index (b, r', d) of the output array is in the block of the point with block index (b, r' / 512, 0). -/
theorem cover_o (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto_o ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk_o]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- The output array after the run. -/
theorem final_o (c : Dev nD) : (dats m 0 c).arrAt 4 cfg0.N
    = Gout (m ((c : Thread nD τ).loc main_arg0)) (m ((c : Thread nD τ).loc main_arg1)) (m ((c : Thread nD τ).loc main_arg2))
        (m ((c : Thread nD τ).loc main_arg3)) :=
  (dats m 0 c).arrAt_eq_of_cover 4 (Gout (V m c main_arg0) (V m c main_arg1) (V m c main_arg2) (V m c main_arg3))
    (fun t _ => flushed_o m c t) cover_o

/-- The kernel's run with both result arrays read. -/
theorem run : θ_run defs (onTc (τ := τ) (main (F := Ideal))) ⟨m, fun _ => 0, ρ⟩ fun r => ∀ c : Dev nD,
      r.2.mem ((c : Thread nD τ).loc main_v0_0)
        = Gout (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = Gp (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_o m c), (h c).2.1.trans (final_p m c), (h c).2.2⟩)
    (Cert.KernelIdeal.Value.run_blocks m ρ)

end Cert.KernelIdeal.AttnValue

end
-- ==== Proof.AttnLaw.lean ====
/-
  The row laws: a plain softmax-plus-one over the 2049 padded scores of a row (the sink's score the fill value, its
  key and value rows zero) is the row computed with the sink kept apart.
-/
import proofs.«410505_j47158740910631_3_alg».proof.Proof.AttnSpec
import proofs.«410505_j47158740910631_3_alg».proof.Proof.AttnConsts
import Mathlib.Data.Fintype.Basic
import Mathlib.Data.Finset.Fold
import Mathlib.Algebra.BigOperators.Fin
import Mathlib.Algebra.Order.BigOperators.Group.Finset
import Mathlib.Data.EReal.Basic
import Mathlib.Analysis.SpecialFunctions.Exp

noncomputable section

namespace Cert.Attn

open Idealize.ShloMosaic

/-! ## The padded row, column by column -/

/-- The sink's column of the padded scores holds the fill value. -/
theorem refScores_zero (s : Fin 2048 → EReal) : refScores s 0 = negFill := by
  unfold refScores
  exact dif_pos rfl

/-- Column `j + 1` of the padded scores holds the score of real key `j`. -/
theorem refScores_succ (s : Fin 2048 → EReal) (j : Fin 2048) : refScores s j.succ = s j := by
  unfold refScores
  rw [dif_neg (by rw [Fin.val_succ]; exact Nat.succ_ne_zero _)]
  exact congrArg s (Fin.ext (by simp only [Fin.val_succ, Nat.add_sub_cancel]))

/-- The sink's probability is the first of the 2049. -/
theorem prob_zero (s : Fin 2048 → EReal) : prob s 0 = probSink s := by
  unfold prob
  exact dif_pos rfl

/-- Probability `j + 1` of the 2049 is the probability of real key `j`. -/
theorem prob_succ (s : Fin 2048 → EReal) (j : Fin 2048) : prob s j.succ = probReal s j := by
  unfold prob
  rw [dif_neg (by rw [Fin.val_succ]; exact Nat.succ_ne_zero _)]
  exact congrArg (probReal s) (Fin.ext (by simp only [Fin.val_succ, Nat.add_sub_cancel]))

/-- The sink's row of the padded values is zero. -/
theorem padV_zero (Vv : Fin 2048 → Fin 128 → EReal) (d : Fin 128) : padV Vv 0 d = 0 := by
  unfold padV
  exact dif_pos rfl

/-- Row `j + 1` of the padded values is the value row of real key `j`. -/
theorem padV_succ (Vv : Fin 2048 → Fin 128 → EReal) (j : Fin 2048) (d : Fin 128) :
    padV Vv j.succ d = Vv j d := by
  unfold padV
  rw [dif_neg (by rw [Fin.val_succ]; exact Nat.succ_ne_zero _)]
  exact congrArg (fun k => Vv k d) (Fin.ext (by simp only [Fin.val_succ, Nat.add_sub_cancel]))

/-! ## One maximum over 2049 columns is the maximum with the sink kept apart -/

/-- The maximum over the padded scores: the fold over 2049 columns splits at the sink's column. -/
theorem refMax_refScores (s : Fin 2048 → EReal) : refMax (refScores s) = rowMax s := by
  unfold refMax rowMax
  rw [Fin.univ_succ, Finset.fold_cons, Finset.fold_map, refScores_zero]
  have hcomp : (refScores s ∘ (⟨Fin.succ, Fin.succ_injective _⟩ : Fin 2048 ↪ Fin 2049)) = s := by
    funext j
    exact refScores_succ s j
  rw [hcomp]
  exact max_comm _ _

/-- The sink's exponential in the padded row. -/
theorem refE_zero (s : Fin 2048 → EReal) : refE (refScores s) 0 = sinkE s := by
  unfold refE sinkE
  rw [refScores_zero, refMax_refScores]

/-- The exponential of real key `j` in the padded row. -/
theorem refE_succ (s : Fin 2048 → EReal) (j : Fin 2048) : refE (refScores s) j.succ = expo s j := by
  unfold refE expo
  rw [refScores_succ, refMax_refScores]

/-! ## One sum over 2049 columns is the sum with the sink kept apart -/

/-- The padded row's denominator: the sink's term is moved to the end of the sum. -/
theorem refDen_refScores (s : Fin 2048 → EReal) : refDen (refScores s) = denom s := by
  unfold refDen denom
  rw [Fin.sum_univ_succ, refE_zero, zero_add]
  simp only [refE_succ]
  rw [add_comm (sinkE s), ← add_assoc]

/-! ## The denominator is not zero -/

/-- The exponential is nonnegative on every extended real. -/
theorem exp_nonneg (x : EReal) : 0 ≤ Ideal.exp x := by
  induction x using EReal.rec with
  | bot => exact le_of_eq Ideal.exp_bot.symm
  | coe r =>
    rw [Ideal.exp_coe]
    exact EReal.coe_nonneg.mpr (Real.exp_pos r).le
  | top => exact le_top

/-- The denominator is at least 1. -/
theorem one_le_denom (s : Fin 2048 → EReal) : 1 ≤ denom s := by
  unfold denom
  have hsum : (0 : EReal) ≤ ∑ j : Fin 2048, expo s j :=
    Finset.sum_nonneg (fun j _ => exp_nonneg _)
  have hsink : (0 : EReal) ≤ sinkE s := exp_nonneg _
  calc (1 : EReal) ≤ 1 + ∑ j : Fin 2048, expo s j := le_add_of_nonneg_right hsum
    _ ≤ (1 + ∑ j : Fin 2048, expo s j) + sinkE s := le_add_of_nonneg_right hsink

theorem denom_ne_zero (s : Fin 2048 → EReal) : denom s ≠ 0 :=
  ne_of_gt (lt_of_lt_of_le zero_lt_one (one_le_denom s))

/-- Off a zero divisor, a quotient is the numerator times the reciprocal `1 / d`. -/
theorem div_eq_mul_div_one (e d : EReal) (hd : d ≠ 0) : Ideal.div e d = e * Ideal.div 1 d := by
  unfold Ideal.div
  rw [if_neg hd, if_neg hd, one_mul]

/-! ## The two laws -/

/-- Over the padded scores, the plain softmax-plus-one gives the row's probabilities. -/
theorem refProb_refScores (s : Fin 2048 → EReal) : refProb (refScores s) = prob s := by
  funext j
  refine Fin.cases ?_ (fun j => ?_) j
  · unfold refProb
    rw [refE_zero, refDen_refScores, prob_zero, div_eq_mul_div_one _ _ (denom_ne_zero s)]
    rfl
  · unfold refProb
    rw [refE_succ, refDen_refScores, prob_succ, div_eq_mul_div_one _ _ (denom_ne_zero s)]
    rfl

/-- Against the padded values (the sink's row zero), its output is the row's output. -/
theorem refOut_refScores (s : Fin 2048 → EReal) (Vv : Fin 2048 → Fin 128 → EReal) :
    refOut (refScores s) (padV Vv) = outv s Vv := by
  funext d
  unfold refOut outv
  rw [refProb_refScores, Fin.sum_univ_succ, padV_zero, mul_zero, zero_add]
  simp only [prob_succ, padV_succ]

end Cert.Attn

end
-- ==== Proof.RefValue.lean ====
/-
  The reference's two results, read index by index: its padded scores are the row's `refScores`, its padded values the
  row's `padV`, so by the row laws its probabilities are `Gp` and its output `Gout` of the argument arrays.
-/
import proofs.«410505_j47158740910631_3_alg».proof.Proof.AttnSpec
import proofs.«410505_j47158740910631_3_alg».proof.Proof.AttnConsts
import proofs.«410505_j47158740910631_3_alg».proof.Proof.AttnLaw
import proofs.«410505_j47158740910631_3_alg».proof.Proof.Gen.ReferenceIdeal.Read
import Idealize.ShloMosaic.Lib.KernelVsHost

noncomputable section

namespace Cert.ReferenceIdeal.AttnRead

open Cert.ReferenceIdeal Cert.ReferenceIdeal.Gen Cert.ReferenceIdeal.Read Cert.Attn
open Idealize.ShloMosaic Idealize.ShloMosaic.ValueIdx

/-! ## The index maps of the generated reading lemmas, at explicit coordinates -/

theorem lidx3_ix3 (b : Fin 16) (r : Fin 2048) (j : Fin 2049) (k : Fin 128) :
    lidx_main_v3 (ix3 b r j) k = ix3 b r k :=
  funext fun a => Fin.ext (by match a with | ⟨0, _⟩ => rfl | ⟨1, _⟩ => rfl | ⟨2, _⟩ => rfl)

theorem ridx3_ix3 (b : Fin 16) (r : Fin 2048) (j : Fin 2049) (k : Fin 128) :
    ridx_main_v3 (ix3 b r j) k = ix3 b j k :=
  funext fun a => Fin.ext (by match a with | ⟨0, _⟩ => rfl | ⟨1, _⟩ => rfl | ⟨2, _⟩ => rfl)

theorem idx11_12_ix3 (b : Fin 16) (r : Fin 2048) (j : Fin 2049) :
    idx_main_v11 (idx_main_v12 (ix3 b r j)) = ix2 b r :=
  funext fun a => Fin.ext (by match a with | ⟨0, _⟩ => rfl | ⟨1, _⟩ => rfl)

theorem idx15_ix2 (b : Fin 16) (r : Fin 2048) (k : Fin 2049) :
    idx_main_v15 (ix2 b r) k = ix3 b r k :=
  funext fun a => Fin.ext (by match a with | ⟨0, _⟩ => rfl | ⟨1, _⟩ => rfl | ⟨2, _⟩ => rfl)

theorem idx16_19_ix3 (b : Fin 16) (r : Fin 2048) (j : Fin 2049) :
    idx_main_v16 (idx_main_v19 (ix3 b r j)) = ix2 b r :=
  funext fun a => Fin.ext (by match a with | ⟨0, _⟩ => rfl | ⟨1, _⟩ => rfl)

theorem lidx21_ix3 (b : Fin 16) (r : Fin 2048) (d : Fin 128) (k : Fin 2049) :
    lidx_main_v21 (ix3 b r d) k = ix3 b r k :=
  funext fun a => Fin.ext (by match a with | ⟨0, _⟩ => rfl | ⟨1, _⟩ => rfl | ⟨2, _⟩ => rfl)

theorem ridx21_ix3 (b : Fin 16) (r : Fin 2048) (d : Fin 128) (k : Fin 2049) :
    ridx_main_v21 (ix3 b r d) k = ix3 b k d :=
  funext fun a => Fin.ext (by match a with | ⟨0, _⟩ => rfl | ⟨1, _⟩ => rfl | ⟨2, _⟩ => rfl)

/-! ## The padded keys and values -/

/-- The zero splat is zero everywhere. -/
theorem v0_zero (i : S16x1x128.Idx) : val_main_v0 (F := Ideal) i = 0 := by
  rw [val_main_v0_apply, val_main_cst_apply]
  exact Ideal.ofBits_zero_f32

/-- A zero row joined in front of the 2048 rows of `x` is `padV` of those rows: row 0 is the zero row, row `k` is row
    `k - 1` of `x`. -/
theorem concat_padV (x : (⟨S16x2048x128, .f32⟩ : BufTy).Contents (Elt Ideal)) (b : Fin 16) (k : Fin 2049) (d : Fin 128) :
    concatenate S16x2049x128 1 [⟨S16x1x128, (val_main_v0 (F := Ideal))⟩, ⟨S16x2048x128, x⟩]
      concatenates_S16x1x128_S16x2048x128_S16x2049x128_d1 (ix3 b k d) = padV (kMat x b) k d := by
  unfold padV
  by_cases hk : k.val = 0
  · rw [dif_pos hk]
    refine (concatenate_pair_apply_left (t := S16x2049x128) (s₁ := S16x1x128) (s₂ := S16x2048x128) _ _ _ _ (ix3 b k d) rfl (ix3 b (0 : Fin 1) d) ?_).trans (v0_zero _)
    intro a
    match a with
    | ⟨0, _⟩ => rfl
    | ⟨1, _⟩ => exact hk.symm
    | ⟨2, _⟩ => rfl
  · rw [dif_neg hk]
    have hlt : k.val - 1 < 2048 := by have := k.isLt; omega
    refine (concatenate_pair_apply_right (t := S16x2049x128) (s₁ := S16x1x128) (s₂ := S16x2048x128) _ _ _ _ (ix3 b k d) rfl rfl (ix3 b (⟨k.val - 1, hlt⟩ : Fin 2048) d) ?_ ?_).trans rfl
    · intro a ha
      match a with
      | ⟨0, _⟩ => rfl
      | ⟨1, _⟩ => exact absurd rfl ha
      | ⟨2, _⟩ => rfl
    · show k.val - 1 + 1 = k.val
      omega

theorem v1_ix3 (x1 : (⟨S16x2048x128, .f32⟩ : BufTy).Contents (Elt Ideal)) (b : Fin 16) (k : Fin 2049) (d : Fin 128) :
    val_main_v1 (F := Ideal) x1 (ix3 b k d) = padV (kMat x1 b) k d := concat_padV x1 b k d

theorem v2_ix3 (x2 : (⟨S16x2048x128, .f32⟩ : BufTy).Contents (Elt Ideal)) (b : Fin 16) (k : Fin 2049) (d : Fin 128) :
    val_main_v2 (F := Ideal) x2 (ix3 b k d) = padV (kMat x2 b) k d := concat_padV x2 b k d

/-! ## The padded mask -/

/-- Column 0 of the padded mask is the padding word, 0. -/
theorem v6_zero (x3 : (⟨S16x2048x2048, .i32⟩ : BufTy).Contents (Elt Ideal)) (b : Fin 16) (r : Fin 2048) (j : Fin 2049)
    (hj : j.val = 0) : val_main_v6 (F := Ideal) x3 (ix3 b r j) = 0#32 := by
  unfold val_main_v6
  refine (pad_apply_of_not_inside _ _ _ x3 _ _ _ (ix3 b r j) (2 : Fin 3) ?_).trans rfl
  intro h
  have h1 : 1 ≤ j.val := h.1
  omega

/-- Column `j > 0` of the padded mask is column `j - 1` of the mask. -/
theorem v6_pos (x3 : (⟨S16x2048x2048, .i32⟩ : BufTy).Contents (Elt Ideal)) (b : Fin 16) (r : Fin 2048) (j : Fin 2049)
    (hj : ¬ j.val = 0) :
    val_main_v6 (F := Ideal) x3 (ix3 b r j) = x3 (ix3 b r (⟨j.val - 1, by have := j.isLt; omega⟩ : Fin 2048)) := by
  unfold val_main_v6
  refine pad_apply_of_inside _ _ _ x3 _ _ _ (ix3 b r j) (ix3 b r (⟨j.val - 1, by have := j.isLt; omega⟩ : Fin 2048)) ?_
  intro a
  match a with
  | ⟨0, _⟩ => show b.val = 0 + b.val * (0 + 1); omega
  | ⟨1, _⟩ => show r.val = 0 + r.val * (0 + 1); omega
  | ⟨2, _⟩ => show j.val = 1 + (j.val - 1) * (0 + 1); omega

/-! ## The masked scores -/

/-- The reference's masked scores of row `(b, r)` are the padded scores of that row. -/
theorem v9_ix3 (x0 x1 : (⟨S16x2048x128, .f32⟩ : BufTy).Contents (Elt Ideal)) (x3 : (⟨S16x2048x2048, .i32⟩ : BufTy).Contents (Elt Ideal))
    (b : Fin 16) (r : Fin 2048) (j : Fin 2049) :
    val_main_v9 (F := Ideal) x0 x1 x3 (ix3 b r j) = refScores (rowScore x0 x1 x3 b r) j := by
  rw [val_main_v9_apply, val_main_v8_apply, val_main_v7_apply, val_main_c_1_apply, val_main_call1_v0_apply,
    val_main_cst_2_apply]
  unfold refScores
  by_cases hj : j.val = 0
  · rw [dif_pos hj, v6_zero x3 b r j hj]
    have h1 : IntOp.cmpi .eq (0#32) (0#32) = 1#1 := by decide
    rw [h1, select_one]
    rfl
  · rw [dif_neg hj, v6_pos x3 b r j hj, val_main_v5_apply, val_main_v4_apply, val_main_cst_0_apply, val_main_v3_apply]
    have hlt : j.val - 1 < 2048 := by have := j.isLt; omega
    have hdot : (∑ k : Fin 128, x0 (lidx_main_v3 (ix3 b r j) k) * val_main_v1 (F := Ideal) x1 (ridx_main_v3 (ix3 b r j) k))
        = ∑ d : Fin 128, x0 (ix3 b r d) * x1 (ix3 b (⟨j.val - 1, hlt⟩ : Fin 2048) d) :=
      Finset.sum_congr rfl fun k _ => by
        rw [lidx3_ix3, ridx3_ix3, v1_ix3, padV, dif_neg hj]
        rfl
    rw [hdot, Ideal.hostDivf_def, Ideal.ofBits_def, Ideal.ofBits_def, div_divisor]
    rfl

/-! ## The row maximum -/

theorem reduces_d2 : S16x2048x2049.Reduces [2] S16x2048 := by decide

/-- The reduced index `(b, r)` with column `k` put back is `(b, r, k)`. -/
theorem lift_ix2 (b : Fin 16) (r : Fin 2048) (k : Fin (S16x2048x2049.size 2)) :
    reduces_d2.lift (ix2 b r) k = ix3 b r (⟨k.val, k.isLt⟩ : Fin 2049) := by
  funext c; apply Fin.ext
  match c with
  | ⟨0, _⟩ => rfl
  | ⟨1, _⟩ => rfl
  | ⟨2, _⟩ => rfl

/-- The reference's row maximum is the maximum of the padded scores. -/
theorem v10_ix2 (x0 x1 : (⟨S16x2048x128, .f32⟩ : BufTy).Contents (Elt Ideal)) (x3 : (⟨S16x2048x2048, .i32⟩ : BufTy).Contents (Elt Ideal))
    (b : Fin 16) (r : Fin 2048) :
    val_main_v10 (F := Ideal) x0 x1 x3 (ix2 b r) = refMax (refScores (rowScore x0 x1 x3 b r)) := by
  unfold val_main_v10
  generalize hy : val_main_v9 (F := Ideal) x0 x1 x3 = y
  refine (Host.reduce_eq_fold_single (α := Ideal .f32) (FloatOps.maximumf (F := Ideal) (φ := .f32)) y _
    reducesTo_S16x2048x2049_S16x2048_d2 reduces_d2 h_S_ (ix2 b r)).trans ?_
  have hf : (y ∘ reduces_d2.lift (ix2 b r)) = fun k : Fin 2049 => refScores (rowScore x0 x1 x3 b r) k :=
    funext fun k => by
      show y (reduces_d2.lift (ix2 b r) k) = _
      rw [lift_ix2, ← hy, v9_ix3]
      rfl
  have hi : val_main_cst_3 (F := Ideal) (Shape.Idx.first h_S_) = (⊥ : EReal) := ofBits_neg_inf
  unfold refMax
  exact (congrArg (fun f => Finset.fold max (val_main_cst_3 (F := Ideal) (Shape.Idx.first h_S_)) f (Finset.univ : Finset (Fin 2049))) hf).trans
    (congrArg (fun z => Finset.fold max z (refScores (rowScore x0 x1 x3 b r)) (Finset.univ : Finset (Fin 2049))) hi)

/-! ## The exponentials, their sum and the quotient -/

theorem v12_ix3 (x0 x1 : (⟨S16x2048x128, .f32⟩ : BufTy).Contents (Elt Ideal)) (x3 : (⟨S16x2048x2048, .i32⟩ : BufTy).Contents (Elt Ideal))
    (b : Fin 16) (r : Fin 2048) (j : Fin 2049) :
    val_main_v12 (F := Ideal) x0 x1 x3 (ix3 b r j) = refMax (refScores (rowScore x0 x1 x3 b r)) := by
  rw [val_main_v12_apply, val_main_v11_apply, idx11_12_ix3, v10_ix2]

theorem v14_ix3 (x0 x1 : (⟨S16x2048x128, .f32⟩ : BufTy).Contents (Elt Ideal)) (x3 : (⟨S16x2048x2048, .i32⟩ : BufTy).Contents (Elt Ideal))
    (b : Fin 16) (r : Fin 2048) (j : Fin 2049) :
    val_main_v14 (F := Ideal) x0 x1 x3 (ix3 b r j) = refE (refScores (rowScore x0 x1 x3 b r)) j := by
  rw [val_main_v14_apply, val_main_v13_apply, v9_ix3, v12_ix3, Ideal.hostUnary_exp_def, Ideal.subf_def]
  rfl

/-- The reference's denominator: one plus the sum, from zero, of the 2049 exponentials. -/
theorem v18_ix (x0 x1 : (⟨S16x2048x128, .f32⟩ : BufTy).Contents (Elt Ideal)) (x3 : (⟨S16x2048x2048, .i32⟩ : BufTy).Contents (Elt Ideal))
    (b : Fin 16) (r : Fin 2048) (i : S16x2048x1.Idx) (hi : idx_main_v16 i = ix2 b r) :
    val_main_v18 (F := Ideal) x0 x1 x3 i = refDen (refScores (rowScore x0 x1 x3 b r)) := by
  rw [val_main_v18_apply, val_main_v17_apply, val_main_cst_5_apply, val_main_v16_apply, hi, val_main_v15_apply,
    val_main_cst_4_apply, Ideal.addf_def, Ideal.ofBits_def, Ideal.ofBits_def, ofBits_one, Ideal.ofBits_zero_f32]
  unfold refDen
  refine congrArg (fun z => (1 : EReal) + (0 + z)) (Finset.sum_congr rfl fun k _ => ?_)
  rw [idx15_ix2, v14_ix3]

theorem v20_ix3 (x0 x1 : (⟨S16x2048x128, .f32⟩ : BufTy).Contents (Elt Ideal)) (x3 : (⟨S16x2048x2048, .i32⟩ : BufTy).Contents (Elt Ideal))
    (b : Fin 16) (r : Fin 2048) (j : Fin 2049) :
    val_main_v20 (F := Ideal) x0 x1 x3 (ix3 b r j) = refProb (refScores (rowScore x0 x1 x3 b r)) j := by
  rw [val_main_v20_apply, val_main_v19_apply, v18_ix x0 x1 x3 b r _ (idx16_19_ix3 b r j), v14_ix3, Ideal.hostDivf_def]
  rfl

/-- The reference's probabilities are `Gp`. -/
theorem ref_p (x0 x1 : (⟨S16x2048x128, .f32⟩ : BufTy).Contents (Elt Ideal)) (x3 : (⟨S16x2048x2048, .i32⟩ : BufTy).Contents (Elt Ideal)) :
    val_main_v20 (F := Ideal) x0 x1 x3 = Gp x0 x1 x3 := by
  funext i
  obtain ⟨b, r, j, rfl⟩ : ∃ (b : Fin 16) (r : Fin 2048) (j : Fin 2049), i = ix3 b r j := ⟨i 0, i 1, i 2, eq_ix3 i⟩
  rw [v20_ix3, refProb_refScores]
  rfl

/-- The reference's output is `Gout`. -/
theorem ref_o (x0 x1 x2 : (⟨S16x2048x128, .f32⟩ : BufTy).Contents (Elt Ideal)) (x3 : (⟨S16x2048x2048, .i32⟩ : BufTy).Contents (Elt Ideal)) :
    val_main_v21 (F := Ideal) x0 x1 x2 x3 = Gout x0 x1 x2 x3 := by
  funext i
  obtain ⟨b, r, d, rfl⟩ : ∃ (b : Fin 16) (r : Fin 2048) (d : Fin 128), i = ix3 b r d := ⟨i 0, i 1, i 2, eq_ix3 i⟩
  rw [val_main_v21_apply]
  have hs : (∑ k : Fin 2049, val_main_v20 (F := Ideal) x0 x1 x3 (lidx_main_v21 (ix3 b r d) k) * val_main_v2 (F := Ideal) x2 (ridx_main_v21 (ix3 b r d) k))
      = refOut (refScores (rowScore x0 x1 x3 b r)) (padV (kMat x2 b)) d :=
    Finset.sum_congr rfl fun k _ => by rw [lidx21_ix3, ridx21_ix3, v20_ix3, v2_ix3]
  rw [hs, refOut_refScores]
  rfl

end Cert.ReferenceIdeal.AttnRead

end
-- ==== Proof.lean ====
/-
  The certificate of the attention kernel against its reference, over the extended reals.

  Both programs compute, for every batch b and query row r, the 2049 probabilities of a "softmax plus one" over the
  row's masked, scaled scores with an always-masked zero SINK key in column 0, and the row's output against the
  values (the sink's value row zero). The kernel keeps the sink apart (its score is the mask-fill value itself, its
  term is added to the denominator by hand, its probability is joined in front of the others, its value row is left
  out of the second product); the reference pads keys, values and mask with the sink and runs a plain softmax plus
  one over 2049 columns. The kernel multiplies the scores by a constant NAMED as the reciprocal of the reference's
  divisor 11863283 / 2^20, and dividing by that divisor is multiplying by its reciprocal on every extended real; the
  two maxima, the two sums and the two quotients agree because max and + are commutative and associative, the
  exponential is nonnegative (so the denominator is never zero), and anything times zero is zero.

  The three frames are the generated ones; `preserves` is the one ledger entry's statement; `algebraic` sets the
  kernel's run, read as the two whole-array functions `Gout` and `Gp`, beside the reference's run, read as the same.
-/
import proofs.«410505_j47158740910631_3_alg».proof.Defs
import proofs.«410505_j47158740910631_3_alg».proof.Proof.Gen.Kernel
import proofs.«410505_j47158740910631_3_alg».proof.Proof.Gen.Kernel.Skeleton
import proofs.«410505_j47158740910631_3_alg».proof.Proof.Gen.Kernel.Launch
import proofs.«410505_j47158740910631_3_alg».proof.Proof.Gen.Kernel.Points
import proofs.«410505_j47158740910631_3_alg».proof.Proof.Gen.Kernel.Frame
import proofs.«410505_j47158740910631_3_alg».proof.Proof.Gen.KernelIdeal
import proofs.«410505_j47158740910631_3_alg».proof.Proof.Gen.KernelIdeal.Skeleton
import proofs.«410505_j47158740910631_3_alg».proof.Proof.Gen.KernelIdeal.Launch
import proofs.«410505_j47158740910631_3_alg».proof.Proof.Gen.KernelIdeal.Points
import proofs.«410505_j47158740910631_3_alg».proof.Proof.Gen.KernelIdeal.Frame
import proofs.«410505_j47158740910631_3_alg».proof.Proof.Gen.ReferenceIdeal
import proofs.«410505_j47158740910631_3_alg».proof.Proof.Gen.Pre_finite_inputs
import proofs.«410505_j47158740910631_3_alg».proof.Proof.Gen.KernelIdeal.Value
import proofs.«410505_j47158740910631_3_alg».proof.Proof.Gen.ReferenceIdeal.Run
import proofs.«410505_j47158740910631_3_alg».proof.Proof.Gen.ReferenceIdeal.Read
import proofs.«410505_j47158740910631_3_alg».proof.Proof.KernelArray
import proofs.«410505_j47158740910631_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the two results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The one ledger entry: the score scale is named the reciprocal of the reference's divisor. -/
theorem preserves : Cert.preserves_Kernel_KernelIdeal :=
  IdealRules.named_const.statement Cert.KernelIdeal.κ "inv_sqrt_dk" .f32 0x3DB504F3#32 ((1048576 / 11863283 : ℝ) : EReal) rfl

/-- From memories agreeing on the arguments both programs end with `Gout` and `Gp` of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v21_eq, Cert.ReferenceIdeal.AttnRead.ref_o,
      (hagree c).1, (hagree c).2.1, (hagree c).2.2.1, (hagree c).2.2.2]
  · rw [Cert.ReferenceIdeal.Read.val_main_v20_eq, Cert.ReferenceIdeal.AttnRead.ref_p,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
